-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 85
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x64, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x64, .f32⟩
  | .hbm, ⟨73, _⟩ => ⟨S850000x1, .f32⟩
  | .hbm, ⟨74, _⟩ => ⟨S850000x64, .f32⟩
  | .hbm, ⟨75, _⟩ => ⟨S850000x64, .f32⟩
  | .hbm, ⟨76, _⟩ => ⟨S_, .f32⟩
  | .hbm, ⟨77, _⟩ => ⟨S50000x64, .f32⟩
  | .hbm, ⟨78, _⟩ => ⟨S850000x1, .i32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | .hbm, ⟨83, _⟩ => ⟨S1x64, .f32⟩
  | .hbm, ⟨84, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Prep.lean ====
/-
  Before the first kernel both programs prepare the graph the same way: the source and destination lists of the 850000 edges
  (the 800000 given ones followed by one self-loop per node) and the symmetric edge weights, the reciprocal square roots of the
  floored in-degrees gathered at both ends and multiplied. The kernel program's first host stretch is the reference's first
  operations word for word, so the three buffers hold the reference's stages of the integer argument.
-/
import proofs.«134635_j9251359556274_1_alg».proof.Proof.Gen.KernelIdeal.Frame
import proofs.«134635_j9251359556274_1_alg».proof.Proof.Gen.ReferenceIdeal.Read
import Idealize.ShloMosaic.Lib.StableHlo.Run

set_option maxRecDepth 16384

noncomputable section

namespace Cert.Prep

open Idealize.ShloMosaic Idealize.ShloMosaic.TcCoe Idealize.ShloMosaic.StableHlo
open Idealize.SL Idealize.SL.Sem
open Cert.KernelIdeal Cert.KernelIdeal.Gen
open Cert.ReferenceIdeal.Read (val_main_v5 val_main_v6 val_main_v28)

variable (m : (ℓ : Loc nD τ sig) → Buf (Elt Ideal) ℓ) (ρ : Dev nD → PrngReg) (c : Dev nD)

/-- The source list with the self-loops appended. -/
theorem A5 : W1 m ρ c (Proc.devRef .tc main_v5) = val_main_v5 (F := Ideal) (m ((c : Thread nD τ).loc main_arg1)) := by
  show StableHlo.after hostOps0 (W0 m ρ c) (Proc.devRef .tc main_v5) = _
  after_results_simp <;> rfl

/-- The destination list with the self-loops appended. -/
theorem A6 : W1 m ρ c (Proc.devRef .tc main_v6) = val_main_v6 (F := Ideal) (m ((c : Thread nD τ).loc main_arg1)) := by
  show StableHlo.after hostOps0 (W0 m ρ c) (Proc.devRef .tc main_v6) = _
  after_results_simp <;> rfl

set_option maxHeartbeats 4000000 in
/-- The edge weights. -/
theorem A28 : W1 m ρ c (Proc.devRef .tc main_v28) = val_main_v28 (F := Ideal) (m ((c : Thread nD τ).loc main_arg1)) := by
  show StableHlo.after hostOps0 (W0 m ρ c) (Proc.devRef .tc main_v28) = _
  after_results_simp <;> rfl

end Cert.Prep

end
-- ==== Proof.Kept.lean ====
/-
  Buffers a segment leaves as it found them, boundary by boundary: each argument array at its launch contents, the two edge
  lists and the edge weights at the terms the first host stretch gives them. No host operation after the first stretch and no
  kernel writes any of them.
-/
import proofs.«134635_j9251359556274_1_alg».proof.Proof.Gen.KernelIdeal.Frame
import proofs.«134635_j9251359556274_1_alg».proof.Proof.Gen.ReferenceIdeal.Read
import proofs.«134635_j9251359556274_1_alg».proof.Proof.Prep
import Idealize.ShloMosaic.Lib.StableHlo.Run

set_option maxRecDepth 16384

noncomputable section

namespace Cert.Kept

open Idealize.ShloMosaic Idealize.ShloMosaic.TcCoe Idealize.ShloMosaic.StableHlo
open Idealize.SL Idealize.SL.Sem
open Cert.KernelIdeal Cert.KernelIdeal.Gen
open Cert.ReferenceIdeal.Read (val_main_v5 val_main_v6 val_main_v28)
open Cert.Prep

variable (m : (ℓ : Loc nD τ sig) → Buf (Elt Ideal) ℓ) (ρ : Dev nD → PrngReg) (c : Dev nD)

theorem A_arg0 : W1 m ρ c (Proc.devRef .tc main_arg0) = m ((c : Thread nD τ).loc main_arg0) := by
  show StableHlo.after hostOps0 (W0 m ρ c) (Proc.devRef .tc main_arg0) = _
  after_results_simp <;> rfl

theorem A_arg2 : W1 m ρ c (Proc.devRef .tc main_arg2) = m ((c : Thread nD τ).loc main_arg2) := by
  show StableHlo.after hostOps0 (W0 m ρ c) (Proc.devRef .tc main_arg2) = _
  after_results_simp <;> rfl

theorem A_arg3 : W1 m ρ c (Proc.devRef .tc main_arg3) = m ((c : Thread nD τ).loc main_arg3) := by
  show StableHlo.after hostOps0 (W0 m ρ c) (Proc.devRef .tc main_arg3) = _
  after_results_simp <;> rfl
theorem B_arg3 : W2 m ρ c (Proc.devRef .tc main_arg3) = m ((c : Thread nD τ).loc main_arg3) :=
  (W2_of_ne m ρ c main_arg3 (by decide)).trans (A_arg3 m ρ c)

theorem A_arg4 : W1 m ρ c (Proc.devRef .tc main_arg4) = m ((c : Thread nD τ).loc main_arg4) := by
  show StableHlo.after hostOps0 (W0 m ρ c) (Proc.devRef .tc main_arg4) = _
  after_results_simp <;> rfl
theorem B_arg4 : W2 m ρ c (Proc.devRef .tc main_arg4) = m ((c : Thread nD τ).loc main_arg4) :=
  (W2_of_ne m ρ c main_arg4 (by decide)).trans (A_arg4 m ρ c)
theorem C_arg4 : W3 m ρ c (Proc.devRef .tc main_arg4) = m ((c : Thread nD τ).loc main_arg4) := by
  show StableHlo.after hostOps1 (W2 m ρ c) (Proc.devRef .tc main_arg4) = _
  after_results_simp
  exact B_arg4 m ρ c
theorem D_arg4 : W4 m ρ c (Proc.devRef .tc main_arg4) = m ((c : Thread nD τ).loc main_arg4) :=
  (W4_of_ne m ρ c main_arg4 (by decide)).trans (C_arg4 m ρ c)

theorem A_arg5 : W1 m ρ c (Proc.devRef .tc main_arg5) = m ((c : Thread nD τ).loc main_arg5) := by
  show StableHlo.after hostOps0 (W0 m ρ c) (Proc.devRef .tc main_arg5) = _
  after_results_simp <;> rfl
theorem B_arg5 : W2 m ρ c (Proc.devRef .tc main_arg5) = m ((c : Thread nD τ).loc main_arg5) :=
  (W2_of_ne m ρ c main_arg5 (by decide)).trans (A_arg5 m ρ c)
theorem C_arg5 : W3 m ρ c (Proc.devRef .tc main_arg5) = m ((c : Thread nD τ).loc main_arg5) := by
  show StableHlo.after hostOps1 (W2 m ρ c) (Proc.devRef .tc main_arg5) = _
  after_results_simp
  exact B_arg5 m ρ c
theorem D_arg5 : W4 m ρ c (Proc.devRef .tc main_arg5) = m ((c : Thread nD τ).loc main_arg5) :=
  (W4_of_ne m ρ c main_arg5 (by decide)).trans (C_arg5 m ρ c)
theorem E_arg5 : W5 m ρ c (Proc.devRef .tc main_arg5) = m ((c : Thread nD τ).loc main_arg5) :=
  (W5_of_ne m ρ c main_arg5 (by decide)).trans (D_arg5 m ρ c)

theorem A_arg6 : W1 m ρ c (Proc.devRef .tc main_arg6) = m ((c : Thread nD τ).loc main_arg6) := by
  show StableHlo.after hostOps0 (W0 m ρ c) (Proc.devRef .tc main_arg6) = _
  after_results_simp <;> rfl
theorem B_arg6 : W2 m ρ c (Proc.devRef .tc main_arg6) = m ((c : Thread nD τ).loc main_arg6) :=
  (W2_of_ne m ρ c main_arg6 (by decide)).trans (A_arg6 m ρ c)
theorem C_arg6 : W3 m ρ c (Proc.devRef .tc main_arg6) = m ((c : Thread nD τ).loc main_arg6) := by
  show StableHlo.after hostOps1 (W2 m ρ c) (Proc.devRef .tc main_arg6) = _
  after_results_simp
  exact B_arg6 m ρ c
theorem D_arg6 : W4 m ρ c (Proc.devRef .tc main_arg6) = m ((c : Thread nD τ).loc main_arg6) :=
  (W4_of_ne m ρ c main_arg6 (by decide)).trans (C_arg6 m ρ c)
theorem E_arg6 : W5 m ρ c (Proc.devRef .tc main_arg6) = m ((c : Thread nD τ).loc main_arg6) :=
  (W5_of_ne m ρ c main_arg6 (by decide)).trans (D_arg6 m ρ c)
theorem F_arg6 : W6 m ρ c (Proc.devRef .tc main_arg6) = m ((c : Thread nD τ).loc main_arg6) := by
  show StableHlo.after hostOps3 (W5 m ρ c) (Proc.devRef .tc main_arg6) = _
  after_results_simp
  exact E_arg6 m ρ c
theorem G_arg6 : W7 m ρ c (Proc.devRef .tc main_arg6) = m ((c : Thread nD τ).loc main_arg6) :=
  (W7_of_ne m ρ c main_arg6 (by decide)).trans (F_arg6 m ρ c)

theorem A_arg7 : W1 m ρ c (Proc.devRef .tc main_arg7) = m ((c : Thread nD τ).loc main_arg7) := by
  show StableHlo.after hostOps0 (W0 m ρ c) (Proc.devRef .tc main_arg7) = _
  after_results_simp <;> rfl
theorem B_arg7 : W2 m ρ c (Proc.devRef .tc main_arg7) = m ((c : Thread nD τ).loc main_arg7) :=
  (W2_of_ne m ρ c main_arg7 (by decide)).trans (A_arg7 m ρ c)
theorem C_arg7 : W3 m ρ c (Proc.devRef .tc main_arg7) = m ((c : Thread nD τ).loc main_arg7) := by
  show StableHlo.after hostOps1 (W2 m ρ c) (Proc.devRef .tc main_arg7) = _
  after_results_simp
  exact B_arg7 m ρ c
theorem D_arg7 : W4 m ρ c (Proc.devRef .tc main_arg7) = m ((c : Thread nD τ).loc main_arg7) :=
  (W4_of_ne m ρ c main_arg7 (by decide)).trans (C_arg7 m ρ c)
theorem E_arg7 : W5 m ρ c (Proc.devRef .tc main_arg7) = m ((c : Thread nD τ).loc main_arg7) :=
  (W5_of_ne m ρ c main_arg7 (by decide)).trans (D_arg7 m ρ c)
theorem F_arg7 : W6 m ρ c (Proc.devRef .tc main_arg7) = m ((c : Thread nD τ).loc main_arg7) := by
  show StableHlo.after hostOps3 (W5 m ρ c) (Proc.devRef .tc main_arg7) = _
  after_results_simp
  exact E_arg7 m ρ c
theorem G_arg7 : W7 m ρ c (Proc.devRef .tc main_arg7) = m ((c : Thread nD τ).loc main_arg7) :=
  (W7_of_ne m ρ c main_arg7 (by decide)).trans (F_arg7 m ρ c)
theorem H_arg7 : W8 m ρ c (Proc.devRef .tc main_arg7) = m ((c : Thread nD τ).loc main_arg7) :=
  (W8_of_ne m ρ c main_arg7 (by decide)).trans (G_arg7 m ρ c)

theorem B_v5 : W2 m ρ c (Proc.devRef .tc main_v5) = val_main_v5 (F := Ideal) (m ((c : Thread nD τ).loc main_arg1)) :=
  (W2_of_ne m ρ c main_v5 (by decide)).trans (A5 m ρ c)
theorem C_v5 : W3 m ρ c (Proc.devRef .tc main_v5) = val_main_v5 (F := Ideal) (m ((c : Thread nD τ).loc main_arg1)) := by
  show StableHlo.after hostOps1 (W2 m ρ c) (Proc.devRef .tc main_v5) = _
  after_results_simp
  exact B_v5 m ρ c
theorem D_v5 : W4 m ρ c (Proc.devRef .tc main_v5) = val_main_v5 (F := Ideal) (m ((c : Thread nD τ).loc main_arg1)) :=
  (W4_of_ne m ρ c main_v5 (by decide)).trans (C_v5 m ρ c)
theorem E_v5 : W5 m ρ c (Proc.devRef .tc main_v5) = val_main_v5 (F := Ideal) (m ((c : Thread nD τ).loc main_arg1)) :=
  (W5_of_ne m ρ c main_v5 (by decide)).trans (D_v5 m ρ c)

theorem B_v6 : W2 m ρ c (Proc.devRef .tc main_v6) = val_main_v6 (F := Ideal) (m ((c : Thread nD τ).loc main_arg1)) :=
  (W2_of_ne m ρ c main_v6 (by decide)).trans (A6 m ρ c)
theorem C_v6 : W3 m ρ c (Proc.devRef .tc main_v6) = val_main_v6 (F := Ideal) (m ((c : Thread nD τ).loc main_arg1)) := by
  show StableHlo.after hostOps1 (W2 m ρ c) (Proc.devRef .tc main_v6) = _
  after_results_simp
  exact B_v6 m ρ c
theorem D_v6 : W4 m ρ c (Proc.devRef .tc main_v6) = val_main_v6 (F := Ideal) (m ((c : Thread nD τ).loc main_arg1)) :=
  (W4_of_ne m ρ c main_v6 (by decide)).trans (C_v6 m ρ c)
theorem E_v6 : W5 m ρ c (Proc.devRef .tc main_v6) = val_main_v6 (F := Ideal) (m ((c : Thread nD τ).loc main_arg1)) :=
  (W5_of_ne m ρ c main_v6 (by decide)).trans (D_v6 m ρ c)

theorem B_v28 : W2 m ρ c (Proc.devRef .tc main_v28) = val_main_v28 (F := Ideal) (m ((c : Thread nD τ).loc main_arg1)) :=
  (W2_of_ne m ρ c main_v28 (by decide)).trans (A28 m ρ c)
theorem C_v28 : W3 m ρ c (Proc.devRef .tc main_v28) = val_main_v28 (F := Ideal) (m ((c : Thread nD τ).loc main_arg1)) := by
  show StableHlo.after hostOps1 (W2 m ρ c) (Proc.devRef .tc main_v28) = _
  after_results_simp
  exact B_v28 m ρ c
theorem D_v28 : W4 m ρ c (Proc.devRef .tc main_v28) = val_main_v28 (F := Ideal) (m ((c : Thread nD τ).loc main_arg1)) :=
  (W4_of_ne m ρ c main_v28 (by decide)).trans (C_v28 m ρ c)
theorem E_v28 : W5 m ρ c (Proc.devRef .tc main_v28) = val_main_v28 (F := Ideal) (m ((c : Thread nD τ).loc main_arg1)) :=
  (W5_of_ne m ρ c main_v28 (by decide)).trans (D_v28 m ρ c)

end Cert.Kept

end
-- ==== Proof.Prod0.lean ====
/-
  The first product kernel: ten grid points, point t taking rows 5000 t … 5000 t + 4999 of a 50000 × 128 array, the
  128 × 128 weight array whole at every point. Its body multiplies the block by the weights into a zero accumulator (the
  change of float format on the way in is the identity on the ideal values), so entry (p, q) of the block it writes is
  the sum over k of block (p, k) × weights (k, q). Block t of the whole product of the two arrays is exactly that, and
  the ten blocks tile the rows: after the write-backs the output array is the whole 50000 × 128 product.
-/
import proofs.«134635_j9251359556274_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StackMember
import Idealize.ShloMosaic.Lib.KernelVsHost

set_option maxRecDepth 16384

noncomputable section

namespace Cert.KernelIdeal.Prod0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The body's contraction is the plain rows-by-columns one. -/
theorem dims_plain : dot_S5000x128_S128x128_S5000x128_1_0_0_1_n_n = DotDims.plain 5000 128 128 := rfl

/-- The whole product of the two arrays. -/
abbrev product (X : Vec Ideal S50000x128 .f32) (W : Vec Ideal S128x128 .f32) : FVec Ideal S50000x128 .f32 :=
  Host.dotGeneral (φ₁ := .f32) (φ₂ := .f32) (DotDims.plain 50000 128 128) none X W

/-- The body's value at row p, column q of a block: the sum over k of block (p, k) × weights (k, q). -/
theorem body_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  first
    | rw [shapeCast_self, dims_plain, matmul_zero_eq_dotGeneral]
    | rw [dims_plain, matmul_zero_eq_dotGeneral]
  exact StackMember.dotGeneral_plain_apply none _ _ p q

/-- The block indices over the grid: the row block of the two big windows is the point, everything else block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two arrays the region finds. -/
theorem written_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = product (V c main_arg0) (V c main_arg2) (((cfg0.win 2).blk t).view.emb (ix2 p q))
  obtain ⟨e00, e01, e10, e11, e20, e21⟩ := block_indices t
  have ht : t.val < 10 := by have h1 := t.isLt; have h2 : cfg0.N = 10 := N_0; omega
  let r : Fin 50000 := ⟨t.val * 5000 + p.val, by have := p.isLt; omega⟩
  have hout : ((cfg0.win 2).blk t).view.emb (ix2 p q) = ix2 r q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  have hin0 : ∀ k : Fin 128, iblk0 V c 0 t (ix2 p k) = V c main_arg0 (ix2 r k) := fun k => by
    show V c main_arg0 (((cfg0.win 0).blk t).view.emb (ix2 p k)) = V c main_arg0 (ix2 r k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hin1 : ∀ k : Fin 128, iblk0 V c 1 t (ix2 k q) = V c main_arg2 (ix2 k q) := fun k => by
    show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  refine (body_apply _ _ p q).trans ?_
  rw [hout]
  refine Eq.trans ?_ (StackMember.dotGeneral_plain_apply none _ _ r q).symm
  refine Finset.sum_congr rfl fun k _ => ?_
  rw [hin0 k, hin1 k]

/-- An index is in point t's output block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row r lies in the block of point r / 5000: the ten blocks tile the array. -/
theorem tiled (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by have h2 : cfg0.N = 10 := N_0; omega⟩
  obtain ⟨e00, e01, e10, e11, e20, e21⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e20]; show (i 0).val / 5000 * 5000 ≤ (i 0).val ∧ (i 0).val < (i 0).val / 5000 * 5000 + 5000; omega
  | ⟨1, _⟩ => show win0_2.index t (1 : Fin 2) * 128 ≤ (i 1).val ∧ (i 1).val < win0_2.index t (1 : Fin 2) * 128 + 128; omega

/-- After the region the output array holds the whole product of the two arrays the region found. -/
theorem final (c : Dev nD) : (dat0 V c).arrAt 2 cfg0.N = product (V c main_arg0) (V c main_arg2) :=
  (dat0 V c).arrAt_eq_of_cover 2 (product (V c main_arg0) (V c main_arg2)) (fun t _ => written_eq V c t) tiled

end Cert.KernelIdeal.Prod0

end
-- ==== Proof.Rows1.lean ====
/-
  The first bias kernel: ten grid points, point t taking rows 5000 t … 5000 t + 4999 of a 50000 × 128 array, the one-row
  array 1 × 128 whole at every point. Its body adds the one row to every row of the block and floors the sum at zero.
  So the output array after the ten write-backs is, at (r, q), max (A (r, q) + B (0, q)) 0: one function of the two arrays
  the region finds, index by index, because block t of that function is what point t writes and the ten blocks tile the rows.
-/
import proofs.«134635_j9251359556274_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.Rows1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Every row plus the one-row array, floored at zero. -/
def rowsPlusFloor (A : Vec Ideal S50000x128 .f32) (B : Vec Ideal S1x128 .f32) : FVec Ideal S50000x128 .f32 :=
  fun i => max (A i + B (ix2 (0 : Fin 1) (i 1 : Fin 128))) (Scalar.ofBits .f32 0x00000000#32)

/-- The body's value at row p, column q of a block: the block's entry plus the one row's entry at q, floored at zero. -/
theorem body_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) (Scalar.ofBits (F := Ideal) .f32 0x00000000#32) := by
  unfold k1_pay1
  rw [shapeCast_self, shapeCast_self]
  show max (x0 (ix2 p q) + broadcastTo S5000x128 x1 broadcasts_S1x128_S5000x128 (ix2 p q)) _ = _
  rw [broadcastTo_1b_ab_apply]
  rfl

/-- The block indices over the grid: the row block of the two big windows is the point, everything else block 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `rowsPlusFloor` of the two arrays the region finds. -/
theorem written_eq (c : Dev nD) (t : Fin cfg1.N) :
    (dat1 V c).flushed 2 t = ((cfg1.win 2).blk t).view.read (Elt Ideal) (rowsPlusFloor (V c main_v42) (V c main_v43)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  funext j
  obtain ⟨p, q, rfl⟩ : ∃ (p : Fin 5000) (q : Fin 128), j = ix2 p q := ⟨j 0, j 1, eq_ix2 j⟩
  show k1_pay1 (iblk1 V c 0 t) (iblk1 V c 1 t) (ix2 p q) = rowsPlusFloor (V c main_v42) (V c main_v43) (((cfg1.win 2).blk t).view.emb (ix2 p q))
  obtain ⟨e00, e01, e10, e11, e20, e21⟩ := block_indices t
  have ht : t.val < 10 := by have h1 := t.isLt; have h2 : cfg1.N = 10 := N_1; omega
  let r : Fin 50000 := ⟨t.val * 5000 + p.val, by have := p.isLt; omega⟩
  have hout : ((cfg1.win 2).blk t).view.emb (ix2 p q) = ix2 r q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have hin0 : iblk1 V c 0 t (ix2 p q) = V c main_v42 (ix2 r q) := by
    show V c main_v42 (((cfg1.win 0).blk t).view.emb (ix2 p q)) = V c main_v42 (ix2 r q)
    refine congrArg (V c main_v42) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have hin1 : iblk1 V c 1 t (ix2 (0 : Fin 1) q) = V c main_v43 (ix2 (0 : Fin 1) q) := by
    show V c main_v43 (((cfg1.win 1).blk t).view.emb (ix2 (0 : Fin 1) q)) = V c main_v43 (ix2 (0 : Fin 1) q)
    refine congrArg (V c main_v43) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  refine (body_apply _ _ p q).trans ?_
  rw [hout, hin0, hin1]
  rfl

/-- An index is in point t's output block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Row r lies in the block of point r / 5000: the ten blocks tile the array. -/
theorem tiled (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, by have h2 : cfg1.N = 10 := N_1; omega⟩
  obtain ⟨e00, e01, e10, e11, e20, e21⟩ := block_indices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; rw [e20]; show (i 0).val / 5000 * 5000 ≤ (i 0).val ∧ (i 0).val < (i 0).val / 5000 * 5000 + 5000; omega
  | ⟨1, _⟩ => show win1_2.index t (1 : Fin 2) * 128 ≤ (i 1).val ∧ (i 1).val < win1_2.index t (1 : Fin 2) * 128 + 128; omega

/-- After the region the output array holds every row of the first array plus the one-row array, floored at zero. -/
theorem final (c : Dev nD) : (dat1 V c).arrAt 2 cfg1.N = rowsPlusFloor (V c main_v42) (V c main_v43) :=
  (dat1 V c).arrAt_eq_of_cover 2 (rowsPlusFloor (V c main_v42) (V c main_v43)) (fun t _ => written_eq V c t) tiled

end Cert.KernelIdeal.Rows1

end
-- ==== Proof.Prod2.lean ====
/-
  The second product kernel: ten grid points, point t taking rows 5000 t … 5000 t + 4999 of a 50000 × 128 array, the
  128 × 64 weight array whole at every point. Its body multiplies the block by the weights into a zero accumulator (the
  change of float format on the way in is the identity on the ideal values), so entry (p, q) of the block it writes is
  the sum over k of block (p, k) × weights (k, q). Block t of the whole product of the two arrays is exactly that, and
  the ten blocks tile the rows: after the write-backs the output array is the whole 50000 × 64 product.
-/
import proofs.«134635_j9251359556274_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StackMember
import Idealize.ShloMosaic.Lib.KernelVsHost

set_option maxRecDepth 16384

noncomputable section

namespace Cert.KernelIdeal.Prod2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The body's contraction is the plain rows-by-columns one. -/
theorem dims_plain : dot_S5000x128_S128x64_S5000x64_1_0_0_1_n_n = DotDims.plain 5000 128 64 := rfl

/-- The whole product of the two arrays. -/
abbrev product (X : Vec Ideal S50000x128 .f32) (W : Vec Ideal S128x64 .f32) : FVec Ideal S50000x64 .f32 :=
  Host.dotGeneral (φ₁ := .f32) (φ₂ := .f32) (DotDims.plain 50000 128 64) none X W

/-- The body's value at row p, column q of a block: the sum over k of block (p, k) × weights (k, q). -/
theorem body_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  first
    | rw [shapeCast_self, dims_plain, matmul_zero_eq_dotGeneral]
    | rw [dims_plain, matmul_zero_eq_dotGeneral]
  exact StackMember.dotGeneral_plain_apply none _ _ p q

/-- The block indices over the grid: the row block of the two big windows is the point, everything else block 0. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two arrays the region finds. -/
theorem written_eq (c : Dev nD) (t : Fin cfg2.N) :
    (dat2 V c).flushed 2 t = ((cfg2.win 2).blk t).view.read (Elt Ideal) (product (V c main_v44) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  funext j
  obtain ⟨p, q, rfl⟩ : ∃ (p : Fin 5000) (q : Fin 64), j = ix2 p q := ⟨j 0, j 1, eq_ix2 j⟩
  show k2_pay1 (iblk2 V c 0 t) (iblk2 V c 1 t) (ix2 p q) = product (V c main_v44) (V c main_arg4) (((cfg2.win 2).blk t).view.emb (ix2 p q))
  obtain ⟨e00, e01, e10, e11, e20, e21⟩ := block_indices t
  have ht : t.val < 10 := by have h1 := t.isLt; have h2 : cfg2.N = 10 := N_2; omega
  let r : Fin 50000 := ⟨t.val * 5000 + p.val, by have := p.isLt; omega⟩
  have hout : ((cfg2.win 2).blk t).view.emb (ix2 p q) = ix2 r q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  have hin0 : ∀ k : Fin 128, iblk2 V c 0 t (ix2 p k) = V c main_v44 (ix2 r k) := fun k => by
    show V c main_v44 (((cfg2.win 0).blk t).view.emb (ix2 p k)) = V c main_v44 (ix2 r k)
    refine congrArg (V c main_v44) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have hin1 : ∀ k : Fin 128, iblk2 V c 1 t (ix2 k q) = V c main_arg4 (ix2 k q) := fun k => by
    show V c main_arg4 (((cfg2.win 1).blk t).view.emb (ix2 k q)) = V c main_arg4 (ix2 k q)
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  refine (body_apply _ _ p q).trans ?_
  rw [hout]
  refine Eq.trans ?_ (StackMember.dotGeneral_plain_apply none _ _ r q).symm
  refine Finset.sum_congr rfl fun k _ => ?_
  rw [hin0 k, hin1 k]

/-- An index is in point t's output block iff each coordinate is in the block's range on its axis. -/
theorem mem_block (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Row r lies in the block of point r / 5000: the ten blocks tile the array. -/
theorem tiled (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  let t : Fin cfg2.N := ⟨(i 0).val / 5000, by have h2 : cfg2.N = 10 := N_2; omega⟩
  obtain ⟨e00, e01, e10, e11, e20, e21⟩ := block_indices t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; rw [e20]; show (i 0).val / 5000 * 5000 ≤ (i 0).val ∧ (i 0).val < (i 0).val / 5000 * 5000 + 5000; omega
  | ⟨1, _⟩ => show win2_2.index t (1 : Fin 2) * 64 ≤ (i 1).val ∧ (i 1).val < win2_2.index t (1 : Fin 2) * 64 + 64; omega

/-- After the region the output array holds the whole product of the two arrays the region found. -/
theorem final (c : Dev nD) : (dat2 V c).arrAt 2 cfg2.N = product (V c main_v44) (V c main_arg4) :=
  (dat2 V c).arrAt_eq_of_cover 2 (product (V c main_v44) (V c main_arg4)) (fun t _ => written_eq V c t) tiled

end Cert.KernelIdeal.Prod2

end
-- ==== Proof.Rows3.lean ====
/-
  The second bias kernel: ten grid points, point t taking rows 5000 t … 5000 t + 4999 of a 50000 × 64 array, the one-row
  array 1 × 64 whole at every point. Its body adds the one row to every row of the block (no floor here).
  So the output array after the ten write-backs is, at (r, q), A (r, q) + B (0, q): one function of the two arrays the
  region finds, index by index, because block t of that function is what point t writes and the ten blocks tile the rows.
-/
import proofs.«134635_j9251359556274_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.Rows3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Every row plus the one-row array. -/
def rowsPlus (A : Vec Ideal S50000x64 .f32) (B : Vec Ideal S1x64 .f32) : FVec Ideal S50000x64 .f32 :=
  fun i => A i + B (ix2 (0 : Fin 1) (i 1 : Fin 64))

/-- The body's value at row p, column q of a block: the block's entry plus the one row's entry at q. -/
theorem body_apply (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  rw [shapeCast_self, shapeCast_self]
  show x0 (ix2 p q) + broadcastTo S5000x64 x1 broadcasts_S1x64_S5000x64 (ix2 p q) = _
  rw [broadcastTo_1b_ab_apply]

/-- The block indices over the grid: the row block of the two big windows is the point, everything else block 0. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `rowsPlus` of the two arrays the region finds. -/
theorem written_eq (c : Dev nD) (t : Fin cfg3.N) :
    (dat3 V c).flushed 2 t = ((cfg3.win 2).blk t).view.read (Elt Ideal) (rowsPlus (V c main_v58) (V c main_v59)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  funext j
  obtain ⟨p, q, rfl⟩ : ∃ (p : Fin 5000) (q : Fin 64), j = ix2 p q := ⟨j 0, j 1, eq_ix2 j⟩
  show k3_pay1 (iblk3 V c 0 t) (iblk3 V c 1 t) (ix2 p q) = rowsPlus (V c main_v58) (V c main_v59) (((cfg3.win 2).blk t).view.emb (ix2 p q))
  obtain ⟨e00, e01, e10, e11, e20, e21⟩ := block_indices t
  have ht : t.val < 10 := by have h1 := t.isLt; have h2 : cfg3.N = 10 := N_3; omega
  let r : Fin 50000 := ⟨t.val * 5000 + p.val, by have := p.isLt; omega⟩
  have hout : ((cfg3.win 2).blk t).view.emb (ix2 p q) = ix2 r q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  have hin0 : iblk3 V c 0 t (ix2 p q) = V c main_v58 (ix2 r q) := by
    show V c main_v58 (((cfg3.win 0).blk t).view.emb (ix2 p q)) = V c main_v58 (ix2 r q)
    refine congrArg (V c main_v58) ?_
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have hin1 : iblk3 V c 1 t (ix2 (0 : Fin 1) q) = V c main_v59 (ix2 (0 : Fin 1) q) := by
    show V c main_v59 (((cfg3.win 1).blk t).view.emb (ix2 (0 : Fin 1) q)) = V c main_v59 (ix2 (0 : Fin 1) q)
    refine congrArg (V c main_v59) ?_
    funext a; apply Fin.ext
    match a with
    | ⟨0, _⟩ => show win3_1.index t (0 : Fin 2) * 1 + 1 * 0 = 0; omega
    | ⟨1, _⟩ => show win3_1.index t (1 : Fin 2) * 64 + 1 * q.val = q.val; omega
  refine (body_apply _ _ p q).trans ?_
  rw [hout, hin0, hin1]
  rfl

/-- An index is in point t's output block iff each coordinate is in the block's range on its axis. -/
theorem mem_block (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v60).slice (win3_2.rect t)).set ↔ _
  rw [View.set_slice_whole, Rect.mem_set_unit]
  exact Iff.rfl

/-- Row r lies in the block of point r / 5000: the ten blocks tile the array. -/
theorem tiled (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  let t : Fin cfg3.N := ⟨(i 0).val / 5000, by have h2 : cfg3.N = 10 := N_3; omega⟩
  obtain ⟨e00, e01, e10, e11, e20, e21⟩ := block_indices t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; rw [e20]; show (i 0).val / 5000 * 5000 ≤ (i 0).val ∧ (i 0).val < (i 0).val / 5000 * 5000 + 5000; omega
  | ⟨1, _⟩ => show win3_2.index t (1 : Fin 2) * 64 ≤ (i 1).val ∧ (i 1).val < win3_2.index t (1 : Fin 2) * 64 + 64; omega

/-- After the region the output array holds every row of the first array plus the one-row array. -/
theorem final (c : Dev nD) : (dat3 V c).arrAt 2 cfg3.N = rowsPlus (V c main_v58) (V c main_v59) :=
  (dat3 V c).arrAt_eq_of_cover 2 (rowsPlus (V c main_v58) (V c main_v59)) (fun t _ => written_eq V c t) tiled

end Cert.KernelIdeal.Rows3

end
-- ==== Proof.Prod4.lean ====
/-
  The third product kernel: ten grid points, point t taking rows 5000 t … 5000 t + 4999 of a 50000 × 64 array, the
  64 × 64 weight array whole at every point. Its body multiplies the block by the weights into a zero accumulator (the
  change of float format on the way in is the identity on the ideal values), so entry (p, q) of the block it writes is
  the sum over k of block (p, k) × weights (k, q). Block t of the whole product of the two arrays is exactly that, and
  the ten blocks tile the rows: after the write-backs the output array is the whole 50000 × 64 product.
-/
import proofs.«134635_j9251359556274_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StackMember
import Idealize.ShloMosaic.Lib.KernelVsHost

set_option maxRecDepth 16384

noncomputable section

namespace Cert.KernelIdeal.Prod4

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The body's contraction is the plain rows-by-columns one. -/
theorem dims_plain : dot_S5000x64_S64x64_S5000x64_1_0_0_1_n_n = DotDims.plain 5000 64 64 := rfl

/-- The whole product of the two arrays. -/
abbrev product (X : Vec Ideal S50000x64 .f32) (W : Vec Ideal S64x64 .f32) : FVec Ideal S50000x64 .f32 :=
  Host.dotGeneral (φ₁ := .f32) (φ₂ := .f32) (DotDims.plain 50000 64 64) none X W

/-- The body's value at row p, column q of a block: the sum over k of block (p, k) × weights (k, q). -/
theorem body_apply (x0 : Vec Ideal S5000x64 .f32) (x1 : Vec Ideal S64x64 .f32) (p : Fin 5000) (q : Fin 64) :
    k4_pay1 x0 x1 (ix2 p q) = ∑ k : Fin 64, x0 (ix2 p k) * x1 (ix2 k q) := by
  unfold k4_pay1
  first
    | rw [shapeCast_self, dims_plain, matmul_zero_eq_dotGeneral]
    | rw [dims_plain, matmul_zero_eq_dotGeneral]
  exact StackMember.dotGeneral_plain_apply none _ _ p q

/-- The block indices over the grid: the row block of the two big windows is the point, everything else block 0. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product of the two arrays the region finds. -/
theorem written_eq (c : Dev nD) (t : Fin cfg4.N) :
    (dat4 V c).flushed 2 t = ((cfg4.win 2).blk t).view.read (Elt Ideal) (product (V c main_v60) (V c main_arg6)) := by
  show (cfg4.win 2).cut (grid4.coords t) ((dat4 V c).after 2 t) = _
  rw [after4_2]
  unfold out4_2
  rw [View.canon_unit_zero origin]
  simp only [View.ld_unit_zero (S := S5000x64) origin, View.ld_unit_zero (S := S64x64) origin]
  funext j
  obtain ⟨p, q, rfl⟩ : ∃ (p : Fin 5000) (q : Fin 64), j = ix2 p q := ⟨j 0, j 1, eq_ix2 j⟩
  show k4_pay1 (iblk4 V c 0 t) (iblk4 V c 1 t) (ix2 p q) = product (V c main_v60) (V c main_arg6) (((cfg4.win 2).blk t).view.emb (ix2 p q))
  obtain ⟨e00, e01, e10, e11, e20, e21⟩ := block_indices t
  have ht : t.val < 10 := by have h1 := t.isLt; have h2 : cfg4.N = 10 := N_4; omega
  let r : Fin 50000 := ⟨t.val * 5000 + p.val, by have := p.isLt; omega⟩
  have hout : ((cfg4.win 2).blk t).view.emb (ix2 p q) = ix2 r q := by
    funext a; apply Fin.ext
    match a with
    | ⟨0, _⟩ => show win4_2.index t (0 : Fin 2) * 5000 + 1 * p.val = t.val * 5000 + p.val; omega
    | ⟨1, _⟩ => show win4_2.index t (1 : Fin 2) * 64 + 1 * q.val = q.val; omega
  have hin0 : ∀ k : Fin 64, iblk4 V c 0 t (ix2 p k) = V c main_v60 (ix2 r k) := fun k => by
    show V c main_v60 (((cfg4.win 0).blk t).view.emb (ix2 p k)) = V c main_v60 (ix2 r k)
    refine congrArg (V c main_v60) ?_
    funext a; apply Fin.ext
    match a with
    | ⟨0, _⟩ => show win4_0.index t (0 : Fin 2) * 5000 + 1 * p.val = t.val * 5000 + p.val; omega
    | ⟨1, _⟩ => show win4_0.index t (1 : Fin 2) * 64 + 1 * k.val = k.val; omega
  have hin1 : ∀ k : Fin 64, iblk4 V c 1 t (ix2 k q) = V c main_arg6 (ix2 k q) := fun k => by
    show V c main_arg6 (((cfg4.win 1).blk t).view.emb (ix2 k q)) = V c main_arg6 (ix2 k q)
    refine congrArg (V c main_arg6) ?_
    funext a; apply Fin.ext
    match a with
    | ⟨0, _⟩ => show win4_1.index t (0 : Fin 2) * 64 + 1 * k.val = k.val; omega
    | ⟨1, _⟩ => show win4_1.index t (1 : Fin 2) * 64 + 1 * q.val = q.val; omega
  refine (body_apply _ _ p q).trans ?_
  rw [hout]
  refine Eq.trans ?_ (StackMember.dotGeneral_plain_apply none _ _ r q).symm
  refine Finset.sum_congr rfl fun k _ => ?_
  rw [hin0 k, hin1 k]

/-- An index is in point t's output block iff each coordinate is in the block's range on its axis. -/
theorem mem_block (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v61).slice (win4_2.rect t)).set ↔ _
  rw [View.set_slice_whole, Rect.mem_set_unit]
  exact Iff.rfl

/-- Row r lies in the block of point r / 5000: the ten blocks tile the array. -/
theorem tiled (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  let t : Fin cfg4.N := ⟨(i 0).val / 5000, by have h2 : cfg4.N = 10 := N_4; omega⟩
  obtain ⟨e00, e01, e10, e11, e20, e21⟩ := block_indices t
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; rw [e20]; show (i 0).val / 5000 * 5000 ≤ (i 0).val ∧ (i 0).val < (i 0).val / 5000 * 5000 + 5000; omega
  | ⟨1, _⟩ => show win4_2.index t (1 : Fin 2) * 64 ≤ (i 1).val ∧ (i 1).val < win4_2.index t (1 : Fin 2) * 64 + 64; omega

/-- After the region the output array holds the whole product of the two arrays the region found. -/
theorem final (c : Dev nD) : (dat4 V c).arrAt 2 cfg4.N = product (V c main_v60) (V c main_arg6) :=
  (dat4 V c).arrAt_eq_of_cover 2 (product (V c main_v60) (V c main_arg6)) (fun t _ => written_eq V c t) tiled

end Cert.KernelIdeal.Prod4

end
-- ==== Proof.Rows5.lean ====
/-
  The third bias kernel: ten grid points, point t taking rows 5000 t … 5000 t + 4999 of a 50000 × 64 array, the one-row
  array 1 × 64 whole at every point. Its body adds the one row to every row of the block (no floor here).
  So the output array after the ten write-backs is, at (r, q), A (r, q) + B (0, q): one function of the two arrays the
  region finds, index by index, because block t of that function is what point t writes and the ten blocks tile the rows.
-/
import proofs.«134635_j9251359556274_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.Rows5

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Every row plus the one-row array. -/
def rowsPlus (A : Vec Ideal S50000x64 .f32) (B : Vec Ideal S1x64 .f32) : FVec Ideal S50000x64 .f32 :=
  fun i => A i + B (ix2 (0 : Fin 1) (i 1 : Fin 64))

/-- The body's value at row p, column q of a block: the block's entry plus the one row's entry at q. -/
theorem body_apply (x0 : Vec Ideal S5000x64 .f32) (x1 : Vec Ideal S1x64 .f32) (p : Fin 5000) (q : Fin 64) :
    k5_pay1 x0 x1 (ix2 p q) = x0 (ix2 p q) + x1 (ix2 (0 : Fin 1) q) := by
  unfold k5_pay1
  rw [shapeCast_self, shapeCast_self]
  show x0 (ix2 p q) + broadcastTo S5000x64 x1 broadcasts_S1x64_S5000x64 (ix2 p q) = _
  rw [broadcastTo_1b_ab_apply]

/-- The block indices over the grid: the row block of the two big windows is the point, everything else block 0. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of `rowsPlus` of the two arrays the region finds. -/
theorem written_eq (c : Dev nD) (t : Fin cfg5.N) :
    (dat5 V c).flushed 2 t = ((cfg5.win 2).blk t).view.read (Elt Ideal) (rowsPlus (V c main_v61) (V c main_v62)) := by
  show (cfg5.win 2).cut (grid5.coords t) ((dat5 V c).after 2 t) = _
  rw [after5_2]
  unfold out5_2
  rw [View.canon_unit_zero origin]
  simp only [View.ld_unit_zero (S := S5000x64) origin, View.ld_unit_zero (S := S1x64) origin]
  funext j
  obtain ⟨p, q, rfl⟩ : ∃ (p : Fin 5000) (q : Fin 64), j = ix2 p q := ⟨j 0, j 1, eq_ix2 j⟩
  show k5_pay1 (iblk5 V c 0 t) (iblk5 V c 1 t) (ix2 p q) = rowsPlus (V c main_v61) (V c main_v62) (((cfg5.win 2).blk t).view.emb (ix2 p q))
  obtain ⟨e00, e01, e10, e11, e20, e21⟩ := block_indices t
  have ht : t.val < 10 := by have h1 := t.isLt; have h2 : cfg5.N = 10 := N_5; omega
  let r : Fin 50000 := ⟨t.val * 5000 + p.val, by have := p.isLt; omega⟩
  have hout : ((cfg5.win 2).blk t).view.emb (ix2 p q) = ix2 r q := by
    funext a; apply Fin.ext
    match a with
    | ⟨0, _⟩ => show win5_2.index t (0 : Fin 2) * 5000 + 1 * p.val = t.val * 5000 + p.val; omega
    | ⟨1, _⟩ => show win5_2.index t (1 : Fin 2) * 64 + 1 * q.val = q.val; omega
  have hin0 : iblk5 V c 0 t (ix2 p q) = V c main_v61 (ix2 r q) := by
    show V c main_v61 (((cfg5.win 0).blk t).view.emb (ix2 p q)) = V c main_v61 (ix2 r q)
    refine congrArg (V c main_v61) ?_
    funext a; apply Fin.ext
    match a with
    | ⟨0, _⟩ => show win5_0.index t (0 : Fin 2) * 5000 + 1 * p.val = t.val * 5000 + p.val; omega
    | ⟨1, _⟩ => show win5_0.index t (1 : Fin 2) * 64 + 1 * q.val = q.val; omega
  have hin1 : iblk5 V c 1 t (ix2 (0 : Fin 1) q) = V c main_v62 (ix2 (0 : Fin 1) q) := by
    show V c main_v62 (((cfg5.win 1).blk t).view.emb (ix2 (0 : Fin 1) q)) = V c main_v62 (ix2 (0 : Fin 1) q)
    refine congrArg (V c main_v62) ?_
    funext a; apply Fin.ext
    match a with
    | ⟨0, _⟩ => show win5_1.index t (0 : Fin 2) * 1 + 1 * 0 = 0; omega
    | ⟨1, _⟩ => show win5_1.index t (1 : Fin 2) * 64 + 1 * q.val = q.val; omega
  refine (body_apply _ _ p q).trans ?_
  rw [hout, hin0, hin1]
  rfl

/-- An index is in point t's output block iff each coordinate is in the block's range on its axis. -/
theorem mem_block (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v63).slice (win5_2.rect t)).set ↔ _
  rw [View.set_slice_whole, Rect.mem_set_unit]
  exact Iff.rfl

/-- Row r lies in the block of point r / 5000: the ten blocks tile the array. -/
theorem tiled (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  let t : Fin cfg5.N := ⟨(i 0).val / 5000, by have h2 : cfg5.N = 10 := N_5; omega⟩
  obtain ⟨e00, e01, e10, e11, e20, e21⟩ := block_indices t
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; rw [e20]; show (i 0).val / 5000 * 5000 ≤ (i 0).val ∧ (i 0).val < (i 0).val / 5000 * 5000 + 5000; omega
  | ⟨1, _⟩ => show win5_2.index t (1 : Fin 2) * 64 ≤ (i 1).val ∧ (i 1).val < win5_2.index t (1 : Fin 2) * 64 + 64; omega

/-- After the region the output array holds every row of the first array plus the one-row array. -/
theorem final (c : Dev nD) : (dat5 V c).arrAt 2 cfg5.N = rowsPlus (V c main_v61) (V c main_v62) :=
  (dat5 V c).arrAt_eq_of_cover 2 (rowsPlus (V c main_v61) (V c main_v62)) (fun t _ => written_eq V c t) tiled

end Cert.KernelIdeal.Rows5

end
-- ==== Proof.Stages.lean ====
/-
  The kernel program's buffers at each boundary between its segments, read against the reference's operations one at a time.
  Both programs prepare the same edge lists and edge weights from the integer input, so those buffers hold the same terms.
  Each product kernel leaves the whole product of the arrays it finds, which is the reference's matrix product of the same two
  arrays (one contraction, read on the ideal values); each stretch of host operations between two kernels is the reference's
  own gather, weight, scatter-add chain applied to equal operands; each bias kernel leaves rows plus one row (floored at zero
  after the first layer), which is the reference's broadcast sum (and its maximum with zero) index by index. So, boundary by
  boundary, every buffer the next segment reads holds the reference's stage of the same arguments, up to the two results.
-/
import proofs.«134635_j9251359556274_1_alg».proof.Proof.Gen.KernelIdeal.Frame
import proofs.«134635_j9251359556274_1_alg».proof.Proof.Gen.ReferenceIdeal.Read
import proofs.«134635_j9251359556274_1_alg».proof.Proof.Prep
import proofs.«134635_j9251359556274_1_alg».proof.Proof.Kept
import proofs.«134635_j9251359556274_1_alg».proof.Proof.Prod0
import proofs.«134635_j9251359556274_1_alg».proof.Proof.Rows1
import proofs.«134635_j9251359556274_1_alg».proof.Proof.Prod2
import proofs.«134635_j9251359556274_1_alg».proof.Proof.Rows3
import proofs.«134635_j9251359556274_1_alg».proof.Proof.Prod4
import proofs.«134635_j9251359556274_1_alg».proof.Proof.Rows5
import Idealize.ShloMosaic.Lib.StableHlo.Run
import Idealize.ShloMosaic.Lib.ValueLayout

set_option maxRecDepth 16384

noncomputable section

namespace Cert.Stages

open Idealize.ShloMosaic Idealize.ShloMosaic.TcCoe Idealize.ShloMosaic.ValueIdx Idealize.ShloMosaic.StableHlo
open Idealize.SL Idealize.SL.Sem
open Cert.KernelIdeal Cert.KernelIdeal.Gen
open Cert.ReferenceIdeal.Read
open Cert.Prep Cert.Kept

variable (m : (ℓ : Loc nD τ sig) → Buf (Elt Ideal) ℓ) (ρ : Dev nD → PrngReg) (c : Dev nD)

/-! ## After the first product kernel -/

/-- The first product array is the reference's first matrix product. -/
theorem B29 : W2 m ρ c (Proc.devRef .tc main_v29) = val_main_v29 (F := Ideal) (m ((c : Thread nD τ).loc main_arg0)) (m ((c : Thread nD τ).loc main_arg2)) := by
  refine (W2_arr m ρ c 2).trans ?_
  refine (Prod0.final (V1 m ρ) c).trans ?_
  show Prod0.product (W1 m ρ c (Proc.devRef .tc main_arg0)) (W1 m ρ c (Proc.devRef .tc main_arg2)) = _
  rw [A_arg0, A_arg2]
  rfl

/-! ## After the first gather, weight, scatter-add chain -/

set_option maxHeartbeats 4000000 in
/-- The first aggregated array is the reference's. -/
theorem C42 : W3 m ρ c (Proc.devRef .tc main_v42) = val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v42) = _
  after_results_simp
  rw [B29, B_v5, B_v6, B_v28]
  rfl

/-- The first bias as one row. -/
theorem C43 : (W3 m ρ c (Proc.devRef .tc main_v43) : Vec Ideal S1x128 .f32) = shapeCast S1x128 (m ((c : Thread nD τ).loc main_arg3)) shapeCasts_S128_S1x128 := by
  show StableHlo.after hostOps1 (W2 m ρ c) (Proc.devRef .tc main_v43) = _
  after_results_simp
  rw [B_arg3]
  rfl

/-! ## After the first bias kernel -/

/-- The first layer's output is the reference's: the aggregated array plus the bias row, floored at zero. -/
theorem D44 : W4 m ρ c (Proc.devRef .tc main_v44) = val_main_v46 (F := Ideal) (m ((c : Thread nD τ).loc main_arg0)) (m ((c : Thread nD τ).loc main_arg1)) (m ((c : Thread nD τ).loc main_arg2)) (m ((c : Thread nD τ).loc main_arg3)) := by
  refine (W4_arr m ρ c 2).trans ?_
  refine (Rows1.final (V3 m ρ) c).trans ?_
  show Rows1.rowsPlusFloor (W3 m ρ c (Proc.devRef .tc main_v42)) (W3 m ρ c (Proc.devRef .tc main_v43)) = _
  rw [C42, C43]
  funext i
  obtain ⟨r, q, rfl⟩ : ∃ (r : Fin 50000) (q : Fin 128), i = ix2 r q := ⟨i 0, i 1, eq_ix2 i⟩
  rw [val_main_v46_apply, val_main_v45_apply, val_main_v44_apply, val_main_v43_apply, val_main_call0_v0_apply, val_main_call0_cst_apply]
  unfold Rows1.rowsPlusFloor
  have hb : shapeCast S1x128 (m ((c : Thread nD τ).loc main_arg3)) shapeCasts_S128_S1x128 (ix2 (0 : Fin 1) q) = (m ((c : Thread nD τ).loc main_arg3)) (idx_main_v43 (idx_main_v44 (ix2 r q))) :=
    (shapeCast_a_1a_apply _ _ 0 q).trans (congrArg _ (funext fun a => match a with | ⟨0, _⟩ => rfl))
  show max (_ + shapeCast S1x128 (m ((c : Thread nD τ).loc main_arg3)) shapeCasts_S128_S1x128 (ix2 (0 : Fin 1) q)) _ = _
  rw [hb]
  rfl

/-! ## After the second product kernel -/

/-- The second product array is the reference's second matrix product. -/
theorem E45 : W5 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  refine (Prod2.final (V4 m ρ) c).trans ?_
  show Prod2.product (W4 m ρ c (Proc.devRef .tc main_v44)) (W4 m ρ c (Proc.devRef .tc main_arg4)) = _
  rw [D44, D_arg4]
  rfl

/-! ## After the second gather, weight, scatter-add chain -/

set_option maxHeartbeats 4000000 in
/-- The second aggregated array is the reference's. -/
theorem F58 : W6 m ρ c (Proc.devRef .tc main_v58) = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v58) = _
  after_results_simp
  rw [E45, E_v5, E_v6, E_v28]
  rfl

/-- The second bias as one row. -/
theorem F59 : (W6 m ρ c (Proc.devRef .tc main_v59) : Vec Ideal S1x64 .f32) = shapeCast S1x64 (m ((c : Thread nD τ).loc main_arg5)) shapeCasts_S64_S1x64 := by
  show StableHlo.after hostOps3 (W5 m ρ c) (Proc.devRef .tc main_v59) = _
  after_results_simp
  rw [E_arg5]
  rfl

/-! ## After the second bias kernel: the first result -/

/-- The second layer's output is the reference's first result: the aggregated array plus the bias row. -/
theorem G60 : W7 m ρ c (Proc.devRef .tc main_v60) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  refine (Rows3.final (V6 m ρ) c).trans ?_
  show Rows3.rowsPlus (W6 m ρ c (Proc.devRef .tc main_v58)) (W6 m ρ c (Proc.devRef .tc main_v59)) = _
  rw [F58, F59]
  funext i
  obtain ⟨r, q, rfl⟩ : ∃ (r : Fin 50000) (q : Fin 64), i = ix2 r q := ⟨i 0, i 1, eq_ix2 i⟩
  rw [val_main_v63_apply, val_main_v62_apply, val_main_v61_apply]
  unfold Rows3.rowsPlus
  have hb : shapeCast S1x64 (m ((c : Thread nD τ).loc main_arg5)) shapeCasts_S64_S1x64 (ix2 (0 : Fin 1) q) = (m ((c : Thread nD τ).loc main_arg5)) (idx_main_v61 (idx_main_v62 (ix2 r q))) :=
    (shapeCast_a_1a_apply _ _ 0 q).trans (congrArg _ (funext fun a => match a with | ⟨0, _⟩ => rfl))
  show _ + shapeCast S1x64 (m ((c : Thread nD τ).loc main_arg5)) shapeCasts_S64_S1x64 (ix2 (0 : Fin 1) q) = _
  rw [hb]
  rfl
/-! ## After the third product kernel -/

/-- The third product array is the reference's third matrix product. -/
theorem H61 : W8 m ρ c (Proc.devRef .tc main_v61) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  refine (Prod4.final (V7 m ρ) c).trans ?_
  show Prod4.product (W7 m ρ c (Proc.devRef .tc main_v60)) (W7 m ρ c (Proc.devRef .tc main_arg6)) = _
  rw [G60, G_arg6]
  rfl

/-- The product kernel reads the first result and leaves it in place. -/
theorem H60 : W8 m ρ c (Proc.devRef .tc main_v60) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W8_arr m ρ c 0).trans (((dat4 (V7 m ρ) c).arrAt_in 0 rfl _).trans (A_eq4 (V7 m ρ) c 0))).trans (G60 m ρ c)
/-! ## After the last bias is laid out as one row -/

theorem I62 : (W9 m ρ c (Proc.devRef .tc main_v62) : Vec Ideal S1x64 .f32) = shapeCast S1x64 (m ((c : Thread nD τ).loc main_arg7)) shapeCasts_S64_S1x64 := by
  show StableHlo.after hostOps5 (W8 m ρ c) (Proc.devRef .tc main_v62) = _
  after_results_simp
  rw [H_arg7]
  rfl
theorem I61 : W9 m ρ c (Proc.devRef .tc main_v61) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v61) = _
  after_results_simp
  exact H61 m ρ c
theorem I60 : W9 m ρ c (Proc.devRef .tc main_v60) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps5 (W8 m ρ c) (Proc.devRef .tc main_v60) = _
  after_results_simp
  exact H60 m ρ c

/-! ## After the last bias kernel: both results -/

/-- The second result is the reference's: the third product plus the bias row. -/
theorem J63 : W10 m ρ c (Proc.devRef .tc main_v63) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  refine (Rows5.final (V9 m ρ) c).trans ?_
  show Rows5.rowsPlus (W9 m ρ c (Proc.devRef .tc main_v61)) (W9 m ρ c (Proc.devRef .tc main_v62)) = _
  rw [I61, I62]
  funext i
  obtain ⟨r, q, rfl⟩ : ∃ (r : Fin 50000) (q : Fin 64), i = ix2 r q := ⟨i 0, i 1, eq_ix2 i⟩
  rw [val_main_v67_apply, val_main_v66_apply, val_main_v65_apply]
  unfold Rows5.rowsPlus
  have hb : shapeCast S1x64 (m ((c : Thread nD τ).loc main_arg7)) shapeCasts_S64_S1x64 (ix2 (0 : Fin 1) q) = (m ((c : Thread nD τ).loc main_arg7)) (idx_main_v65 (idx_main_v66 (ix2 r q))) :=
    (shapeCast_a_1a_apply _ _ 0 q).trans (congrArg _ (funext fun a => match a with | ⟨0, _⟩ => rfl))
  show _ + shapeCast S1x64 (m ((c : Thread nD τ).loc main_arg7)) shapeCasts_S64_S1x64 (ix2 (0 : Fin 1) q) = _
  rw [hb]
  rfl

/-- The first result is still in place at the end. -/
theorem J60 : W10 m ρ c (Proc.devRef .tc main_v60) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W10_of_ne m ρ c main_v60 (by decide)).trans (I60 m ρ c)

end Cert.Stages

end
-- ==== Proof.lean ====
/-
  Two graph-convolution layers and a linear classifier over 50000 nodes and 850000 weighted edges (the given edges and one
  self-loop per node), the kernel program against the reference. Both prepare the edge lists and the symmetric edge weights
  with the same integer and host operations. The kernel program computes the three matrix products and the three bias sums
  in tiled kernels (ten row blocks of 5000); the reference computes them with whole-array operations. On the ideal values a
  tiled product into a zero accumulator is the whole product, the change of float format before it is the identity, and a
  row broadcast added block by block is the broadcast sum; the gather, weight and scatter-add chains between them are the
  same functions on both sides. So the two programs end with equal results: the second layer's output and the classifier's.
  The three frames are the generated ones (the reference's is its generated run with the results dropped); nothing was
  rewritten on the way to the idealized kernel program, so that claim is trivial.
-/
import proofs.«134635_j9251359556274_1_alg».proof.Defs
import proofs.«134635_j9251359556274_1_alg».proof.Proof.Gen.Kernel
import proofs.«134635_j9251359556274_1_alg».proof.Proof.Gen.Kernel.Skeleton
import proofs.«134635_j9251359556274_1_alg».proof.Proof.Gen.Kernel.Launch
import proofs.«134635_j9251359556274_1_alg».proof.Proof.Gen.Kernel.Points
import proofs.«134635_j9251359556274_1_alg».proof.Proof.Gen.Kernel.Frame
import proofs.«134635_j9251359556274_1_alg».proof.Proof.Gen.KernelIdeal
import proofs.«134635_j9251359556274_1_alg».proof.Proof.Gen.KernelIdeal.Skeleton
import proofs.«134635_j9251359556274_1_alg».proof.Proof.Gen.KernelIdeal.Launch
import proofs.«134635_j9251359556274_1_alg».proof.Proof.Gen.KernelIdeal.Points
import proofs.«134635_j9251359556274_1_alg».proof.Proof.Gen.KernelIdeal.Frame
import proofs.«134635_j9251359556274_1_alg».proof.Proof.Gen.ReferenceIdeal
import proofs.«134635_j9251359556274_1_alg».proof.Proof.Gen.ReferenceIdeal.Run
import proofs.«134635_j9251359556274_1_alg».proof.Proof.Gen.ReferenceIdeal.Read
import proofs.«134635_j9251359556274_1_alg».proof.Proof.Gen.Pre_finite_inputs
import proofs.«134635_j9251359556274_1_alg».proof.Proof.KernelRunNamed
import proofs.«134635_j9251359556274_1_alg».proof.Proof.Stages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end, the kernel program's two results at the reference's last two stages of its own arguments, and the
    reference's at the same stages of arguments that agree. -/
theorem algebraic : Cert.algebraic_KernelIdeal_ReferenceIdeal := by
  intro m ρ m' ρ' _ hagree
  refine ⟨fun c => Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Named.run (F := Ideal) m ρ)
    obtain ⟨h60, h63, hargs⟩ := h c
    exact ⟨h60.trans (Cert.Stages.J60 m ρ c), h63.trans (Cert.Stages.J63 m ρ c), hargs⟩
  · refine (θ_run Cert.ReferenceIdeal.defs _ _).mono (fun r h c => ?_) (Cert.ReferenceIdeal.Value.run (F := Ideal) m' ρ')
    obtain ⟨h63, h67, hargs⟩ := h c
    obtain ⟨g0, g1, g2, g3, g4, g5, g6, g7⟩ := hagree c
    refine ⟨h63.trans ?_, h67.trans ?_, hargs⟩
    · rw [Cert.ReferenceIdeal.Read.val_main_v63_eq, g0, g1, g2, g3, g4, g5]
    · rw [Cert.ReferenceIdeal.Read.val_main_v67_eq, g0, g1, g2, g3, g4, g5, g6, g7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
